-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x64x64 : Shape := ⟨4, ![16, 512, 64, 64]⟩
abbrev S2048 : Shape := ⟨1, ![2048]⟩
abbrev S256x512 : Shape := ⟨2, ![256, 512]⟩
abbrev S256 : Shape := ⟨1, ![256]⟩
abbrev S256x256 : Shape := ⟨2, ![256, 256]⟩
abbrev S_ : Shape := ⟨0, ![]⟩

class Facts : Prop where
  bcast_S_S16x512x64x64 : S_.BroadcastsInDim S16x512x64x64 (![] : Fin 0 → Fin S16x512x64x64.rank)
  reducesTo_S16x512x64x64_S_d0_1_2_3 : S16x512x64x64.ReducesTo [0, 1, 2, 3] S_
  h_S_ : 0 < S_.numel
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg1 : IVec S2048 32) (main_arg5 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_c_8 : IVec S_ 32 := constantI S_ 32 4294963200#32
  let main_v24 : IVec S2048 32 := broadcastInDim S2048 ![] bcast_S_S2048 main_c_8
  let main_v25 : IVec S2048 1 := cmpi .sge main_arg1 main_v24
  let main_c_9 : IVec S_ 1 := constantI S_ 1 1#1
  let main_v26 : IVec S_ 1 := (fun x v => Host.reduce IntOp.andi x v reducesTo_S2048_S_d0 h_S_) main_v25 main_c_9
  let main_v27 : IVec S_ 1 := andi main_v23 main_v26
  let main_c_10 : IVec S_ 32 := constantI S_ 32 4096#32
  let main_v28 : IVec S2048 32 := broadcastInDim S2048 ![] bcast_S_S2048 main_c_10
  let main_v29 : IVec S2048 1 := cmpi .slt main_arg1 main_v28
  let main_c_11 : IVec S_ 1 := constantI S_ 1 1#1
  let main_v30 : IVec S_ 1 := (fun x v => Host.reduce IntOp.andi x v reducesTo_S2048_S_d0 h_S_) main_v29 main_c_11
  let main_v31 : IVec S_ 1 := andi main_v27 main_v30
  main_v31

def fn {F : FTy → Type} [FloatOps F] (main_arg0 : FVec F S16x512x64x64 .f32) (main_arg1 : IVec S2048 32) (main_arg2 : FVec F S256x512 .f32) (main_arg3 : FVec F S256 .f32) (main_arg4 : FVec F S256x256 .f32) (main_arg5 : FVec F S256 .f32) : IVec S_ 1 :=
  let main_v0 : FVec F S16x512x64x64 .f32 := Host.absf main_arg0
  let main_cst : FVec F S_ .f32 := constant S_ .f32 0x7F800000#32
  let main_v1 : FVec F S16x512x64x64 .f32 := broadcastInDim S16x512x64x64 ![] bcast_S_S16x512x64x64 main_cst
  let main_v2 : IVec S16x512x64x64 1 := cmpf .olt main_v0 main_v1
  let main_c : IVec S_ 1 := constantI S_ 1 1#1
  let main_v3 : IVec S_ 1 := (fun x v => Host.reduce IntOp.andi x v reducesTo_S16x512x64x64_S_d0_1_2_3 h_S_) main_v2 main_c
  let main_v4 : FVec F S256x512 .f32 := Host.absf main_arg2
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg1 main_arg5 main_v13 main_v16
-- ==== Kernel.lean ====
abbrev S16x512x64x64 : Shape := ⟨4, ![16, 512, 64, 64]⟩
abbrev S2048 : Shape := ⟨1, ![2048]⟩
abbrev S256x512 : Shape := ⟨2, ![256, 512]⟩
abbrev S256 : Shape := ⟨1, ![256]⟩
abbrev S256x256 : Shape := ⟨2, ![256, 256]⟩
abbrev S16x512x4096 : Shape := ⟨3, ![16, 512, 4096]⟩
abbrev S256x1 : Shape := ⟨2, ![256, 1]⟩
abbrev S16x4096x256 : Shape := ⟨3, ![16, 4096, 256]⟩
abbrev S1x512x2048 : Shape := ⟨3, ![1, 512, 2048]⟩
abbrev S1x2048x256 : Shape := ⟨3, ![1, 2048, 256]⟩
abbrev S512x2048 : Shape := ⟨2, ![512, 2048]⟩
abbrev S256x2048 : Shape := ⟨2, ![256, 2048]⟩
abbrev S1x2048 : Shape := ⟨2, ![1, 2048]⟩
abbrev S2048x256 : Shape := ⟨2, ![2048, 256]⟩
abbrev S_ : Shape := ⟨0, ![]⟩
abbrev S2048x1 : Shape := ⟨2, ![2048, 1]⟩
abbrev S1 : Shape := ⟨1, ![1]⟩
abbrev S1x1 : Shape := ⟨2, ![1, 1]⟩
abbrev S16x2048x256 : Shape := ⟨3, ![16, 2048, 256]⟩
abbrev S32768x256 : Shape := ⟨2, ![32768, 256]⟩

abbrev nBuf : Space → Nat
  | .hbm => 36
  | .vmem => 8
  | .smem => 0
  | _ => 0

abbrev bufTy : (tb : Table) → Fin (tcTables nBuf tb) → BufTy
  | .hbm, ⟨0, _⟩ => ⟨S16x512x64x64, .f32⟩
  | .hbm, ⟨1, _⟩ => ⟨S2048, .i32⟩
  | .hbm, ⟨2, _⟩ => ⟨S256x512, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S16x512x4096, .f32⟩
  | .hbm, ⟨7, _⟩ => ⟨S256x512, .bf16⟩
  | .hbm, ⟨8, _⟩ => ⟨S256x256, .bf16⟩
  | .hbm, ⟨9, _⟩ => ⟨S256x1, .f32⟩
  | .hbm, ⟨10, _⟩ => ⟨S256x1, .f32⟩
  | .hbm, ⟨11, _⟩ => ⟨S16x4096x256, .f32⟩
  | .hbm, ⟨12, _⟩ => ⟨S_, .i32⟩
  | .hbm, ⟨13, _⟩ => ⟨S2048, .i32⟩
  | .hbm, ⟨14, _⟩ => ⟨S2048, .i1⟩
  | .hbm, ⟨15, _⟩ => ⟨S_, .i32⟩
  | .hbm, ⟨16, _⟩ => ⟨S2048, .i32⟩
  | .hbm, ⟨17, _⟩ => ⟨S2048, .i32⟩
  | .hbm, ⟨18, _⟩ => ⟨S2048, .i32⟩
  | .hbm, ⟨19, _⟩ => ⟨S2048x1, .i32⟩
  | .hbm, ⟨20, _⟩ => ⟨S1, .i32⟩
  | .hbm, ⟨21, _⟩ => ⟨S_, .i32⟩
  | .hbm, ⟨22, _⟩ => ⟨S2048x1, .i32⟩
  | .hbm, ⟨23, _⟩ => ⟨S2048x1, .i1⟩
  | .hbm, ⟨24, _⟩ => ⟨S1x1, .i32⟩
  | .hbm, ⟨25, _⟩ => ⟨S2048x1, .i32⟩
  | .hbm, ⟨26, _⟩ => ⟨S2048x1, .i1⟩
  | .hbm, ⟨27, _⟩ => ⟨S2048x1, .i1⟩
  | .hbm, ⟨28, _⟩ => ⟨S_, .i1⟩
  | .hbm, ⟨29, _⟩ => ⟨S2048, .i1⟩
  | .hbm, ⟨30, _⟩ => ⟨S16x2048x256, .f32⟩
  | .hbm, ⟨31, _⟩ => ⟨S16x2048x256, .i1⟩
  | .hbm, ⟨32, _⟩ => ⟨S_, .f32⟩
  | .hbm, ⟨33, _⟩ => ⟨S16x2048x256, .f32⟩
  | .hbm, ⟨34, _⟩ => ⟨S16x2048x256, .f32⟩
  | .hbm, ⟨35, _⟩ => ⟨S32768x256, .f32⟩
  | .local _ .vmem, ⟨0, _⟩ => ⟨S1x512x2048, .f32⟩
  | .local _ .vmem, ⟨1, _⟩ => ⟨S1x512x2048, .f32⟩
  | .local _ .vmem, ⟨2, _⟩ => ⟨S256x512, .bf16⟩
  | .local _ .vmem, ⟨3, _⟩ => ⟨S256x256, .bf16⟩
  | .local _ .vmem, ⟨4, _⟩ => ⟨S256x1, .f32⟩
  | .local _ .vmem, ⟨5, _⟩ => ⟨S256x1, .f32⟩
  | .local _ .vmem, ⟨6, _⟩ => ⟨S1x2048x256, .f32⟩
  | .local _ .vmem, ⟨7, _⟩ => ⟨S1x2048x256, .f32⟩
  | _, _ => ⟨S16x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v6 : Ref sig .tc := ⟨.hbm, 34, rfl⟩
abbrev main_v7 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S16x512x64x64_S16x512x4096 : S16x512x64x64.ShapeCasts S16x512x4096
  bitsLt_bf16_f32 : FTy.bits .bf16 < FTy.bits .f32
  shapeCasts_S256_S256x1 : S256.ShapeCasts S256x1
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x2048 : S256x1.Broadcasts S256x2048
  inb_S256x256_S256x256_0_0 : ∀ a, (![0, 0] : Fin 2 → Nat) a + S256x256.size a ≤ S256x256.size a
  h_S256x256 : 0 < S256x256.numel
  shapeCasts_S256x256_S256x256 : S256x256.ShapeCasts S256x256
  reduces_S256x2048_S2048 : S256x2048.Reduces [0] S2048
  shapeCasts_S2048_S1x2048 : S2048.ShapeCasts S1x2048
  broadcasts_S1x2048_S256x2048 : S1x2048.Broadcasts S256x2048
  transposes_S256x2048_p1_0_S2048x256 : S256x2048.Transposes [1, 0] S2048x256
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  shapeCasts_S2048x256_S1x2048x256 : S2048x256.ShapeCasts S1x2048x256
  bcast_S_S2048 : S_.BroadcastsInDim S2048 (![] : Fin 0 → Fin S2048.rank)
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S1_S1x1_1 : S1.BroadcastsInDim S1x1 (![1] : Fin 1 → Fin S1x1.rank)
  bcast_S1x1_S2048x1_0_1 : S1x1.BroadcastsInDim S2048x1 (![0, 1] : Fin 2 → Fin S2048x1.rank)
  reducesTo_S2048x1_S2048_d1 : S2048x1.ReducesTo [1] S2048
  h_S_ : 0 < S_.numel
  bcast_S2048_S16x2048x256_1 : S2048.BroadcastsInDim S16x2048x256 (![1] : Fin 1 → Fin S16x2048x256.rank)
  bcast_S_S16x2048x256 : S_.BroadcastsInDim S16x2048x256 (![] : Fin 0 → Fin S16x2048x256.rank)
  shapeCasts_S16x2048x256_S32768x256 : S16x2048x256.ShapeCasts S32768x256
  dot_S256x512_S512x2048_S256x2048_1_0_0_1_n_n_wf : DotDims.WF S256x512 S512x2048 S256x2048 [1] [0] [0] [1] [] []
  dot_S256x256_S256x2048_S256x2048_1_0_0_1_n_n_wf : DotDims.WF S256x256 S256x2048 S256x2048 [1] [0] [0] [1] [] []
  gather_S16x4096x256_S2048x1_S16x2048x256_02_1_n_n_1_1_161256_wf : GatherDims.WF S16x4096x256 S2048x1 S16x2048x256 [0, 2] [1] [] [1] [] 1 ![16, 1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S16x512x4096.size a
  hwx0_0 : ∀ i : grid0.Coords, EltTy.bits .f32 = 32 ∨ (Rect.block (s := S16x512x4096) S1x512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .bf16 = 32 ∨ (Rect.block (s := S256x512) S256x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S256x1.size a
  hwx0_3 : ∀ i : grid0.Coords, EltTy.bits .f32 = 32 ∨ (Rect.block (s := S256x1) S256x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S256x1.size a
  hwx0_4 : ∀ i : grid0.Coords, EltTy.bits .f32 = 32 ∨ (Rect.block (s := S256x1) S256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2048x256.size a ≤ S16x4096x256.size a
  hwx0_5 : ∀ i : grid0.Coords, EltTy.bits .f32 = 32 ∨ (Rect.block (s := S16x4096x256) S1x2048x256.size (cc0_transform_5 i) (hinb0_5 i)).WholeWords (EltTy.packing .f32)

variable [Facts₀]

def dot_S256x512_S512x2048_S256x2048_1_0_0_1_n_n : DotDims S256x512 S512x2048 S256x2048 where
  lhsContracting := [1]
  rhsContracting := [0]
  lhsNonContracting := [0]
  rhsNonContracting := [1]
  lhsBatch := []
  rhsBatch := []
  wf := dot_S256x512_S512x2048_S256x2048_1_0_0_1_n_n_wf
def dot_S256x256_S256x2048_S256x2048_1_0_0_1_n_n : DotDims S256x256 S256x2048 S256x2048 where
  lhsContracting := [1]
  rhsContracting := [0]
  lhsNonContracting := [0]
  rhsNonContracting := [1]
  lhsBatch := []
  rhsBatch := []
  wf := dot_S256x256_S256x2048_S256x2048_1_0_0_1_n_n_wf
def gather_S16x4096x256_S2048x1_S16x2048x256_02_1_n_n_1_1_161256 : GatherDims S16x4096x256 S2048x1 S16x2048x256 where
  offsetDims := [0, 2]
  collapsedSliceDims := [1]
  operandBatchingDims := []
  startIndicesBatchingDims := []
  startIndexMap := [1]
  indexVectorDim := 1
  sliceSizes := ![16, 1, 256]
  wf := gather_S16x4096x256_S2048x1_S16x2048x256_02_1_n_n_1_1_161256_wf

abbrev win0_0 : Pipeline.Window sig grid0 :=
  Pipeline.Window.ofSpec (Memref.whole main_v0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S256x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x2048x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x512x64x64 : Shape := ⟨4, ![16, 512, 64, 64]⟩
abbrev S2048 : Shape := ⟨1, ![2048]⟩
abbrev S256x512 : Shape := ⟨2, ![256, 512]⟩
abbrev S256 : Shape := ⟨1, ![256]⟩
abbrev S256x256 : Shape := ⟨2, ![256, 256]⟩
abbrev S16x64x64x512 : Shape := ⟨4, ![16, 64, 64, 512]⟩
abbrev S16x4096x512 : Shape := ⟨3, ![16, 4096, 512]⟩
abbrev S_ : Shape := ⟨0, ![]⟩
abbrev S2048x1 : Shape := ⟨2, ![2048, 1]⟩
abbrev S16x2048x512 : Shape := ⟨3, ![16, 2048, 512]⟩
abbrev S32768x512 : Shape := ⟨2, ![32768, 512]⟩
abbrev S512x256 : Shape := ⟨2, ![512, 256]⟩
abbrev S32768x256 : Shape := ⟨2, ![32768, 256]⟩
abbrev S1x256 : Shape := ⟨2, ![1, 256]⟩
abbrev S32768 : Shape := ⟨1, ![32768]⟩
abbrev S32768x1 : Shape := ⟨2, ![32768, 1]⟩

abbrev nBuf : Space → Nat
  | .hbm => 41
  | .vmem => 0
  | .smem => 0
  | _ => 0

abbrev bufTy : (tb : Table) → Fin (tcTables nBuf tb) → BufTy
  | .hbm, ⟨0, _⟩ => ⟨S16x512x64x64, .f32⟩
  | .hbm, ⟨1, _⟩ => ⟨S2048, .i32⟩
  | .hbm, ⟨2, _⟩ => ⟨S256x512, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S16x64x64x512, .f32⟩
  | .hbm, ⟨7, _⟩ => ⟨S16x4096x512, .f32⟩
  | .hbm, ⟨8, _⟩ => ⟨S_, .i32⟩
  | .hbm, ⟨9, _⟩ => ⟨S2048, .i32⟩
  | .hbm, ⟨10, _⟩ => ⟨S2048, .i1⟩
  | .hbm, ⟨11, _⟩ => ⟨S_, .i32⟩
  | .hbm, ⟨12, _⟩ => ⟨S2048, .i32⟩
  | .hbm, ⟨13, _⟩ => ⟨S2048, .i32⟩
  | .hbm, ⟨14, _⟩ => ⟨S2048, .i32⟩
  | .hbm, ⟨15, _⟩ => ⟨S2048x1, .i32⟩
  | .hbm, ⟨16, _⟩ => ⟨S16x2048x512, .f32⟩
  | .hbm, ⟨17, _⟩ => ⟨S32768x512, .f32⟩
  | .hbm, ⟨18, _⟩ => ⟨S512x256, .f32⟩
  | .hbm, ⟨19, _⟩ => ⟨S32768x256, .f32⟩
  | .hbm, ⟨20, _⟩ => ⟨S1x256, .f32⟩
  | .hbm, ⟨21, _⟩ => ⟨S32768x256, .f32⟩
  | .hbm, ⟨22, _⟩ => ⟨S32768x256, .f32⟩
  | .hbm, ⟨23, _⟩ => ⟨S_, .f32⟩
  | .hbm, ⟨24, _⟩ => ⟨S32768x256, .f32⟩
  | .hbm, ⟨25, _⟩ => ⟨S32768x256, .f32⟩
  | .hbm, ⟨26, _⟩ => ⟨S256x256, .f32⟩
  | .hbm, ⟨27, _⟩ => ⟨S32768x256, .f32⟩
  | .hbm, ⟨28, _⟩ => ⟨S1x256, .f32⟩
  | .hbm, ⟨29, _⟩ => ⟨S32768x256, .f32⟩
  | .hbm, ⟨30, _⟩ => ⟨S32768x256, .f32⟩
  | .hbm, ⟨31, _⟩ => ⟨S32768x256, .f32⟩
  | .hbm, ⟨32, _⟩ => ⟨S_, .f32⟩
  | .hbm, ⟨33, _⟩ => ⟨S32768, .f32⟩
  | .hbm, ⟨34, _⟩ => ⟨S32768x1, .f32⟩
  | .hbm, ⟨35, _⟩ => ⟨S32768x1, .f32⟩
  | .hbm, ⟨36, _⟩ => ⟨S_, .f32⟩
  | .hbm, ⟨37, _⟩ => ⟨S32768x1, .f32⟩
  | .hbm, ⟨38, _⟩ => ⟨S32768x1, .f32⟩
  | .hbm, ⟨39, _⟩ => ⟨S32768x256, .f32⟩
  | .hbm, ⟨40, _⟩ => ⟨S32768x256, .f32⟩
  | _, _ => ⟨S16x512x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_cst : Ref sig .tc := ⟨.hbm, 23, rfl⟩
abbrev main_call0_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_1 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  transposes_S16x512x64x64_S16x64x64x512_0_2_3_1 : S16x512x64x64.Transposes [0, 2, 3, 1] S16x64x64x512
  shapeCasts_S16x64x64x512_S16x4096x512 : S16x64x64x512.ShapeCasts S16x4096x512
  bcast_S_S2048 : S_.BroadcastsInDim S2048 (![] : Fin 0 → Fin S2048.rank)
  bcast_S2048_S2048x1_0 : S2048.BroadcastsInDim S2048x1 (![0] : Fin 1 → Fin S2048x1.rank)
  shapeCasts_S16x2048x512_S32768x512 : S16x2048x512.ShapeCasts S32768x512
  transposes_S256x512_S512x256_1_0 : S256x512.Transposes [1, 0] S512x256
  bcast_S256_S1x256_1 : S256.BroadcastsInDim S1x256 (![1] : Fin 1 → Fin S1x256.rank)
  bcast_S1x256_S32768x256_0_1 : S1x256.BroadcastsInDim S32768x256 (![0, 1] : Fin 2 → Fin S32768x256.rank)
  bcast_S_S32768x256 : S_.BroadcastsInDim S32768x256 (![] : Fin 0 → Fin S32768x256.rank)
  transposes_S256x256_S256x256_1_0 : S256x256.Transposes [1, 0] S256x256
  reducesTo_S32768x256_S32768_d1 : S32768x256.ReducesTo [1] S32768
  h_S_ : 0 < S_.numel
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x256_0_1 : S32768x1.BroadcastsInDim S32768x256 (![0, 1] : Fin 2 → Fin S32768x256.rank)
  gather_S16x4096x512_S2048x1_S16x2048x512_02_1_n_n_1_1_161512_wf : GatherDims.WF S16x4096x512 S2048x1 S16x2048x512 [0, 2] [1] [] [1] [] 1 ![16, 1, 512]
  dot_S32768x512_S512x256_S32768x256_1_0_0_1_n_n_wf : DotDims.WF S32768x512 S512x256 S32768x256 [1] [0] [0] [1] [] []
  dot_S32768x256_S256x256_S32768x256_1_0_0_1_n_n_wf : DotDims.WF S32768x256 S256x256 S32768x256 [1] [0] [0] [1] [] []

variable [Facts₀]

def gather_S16x4096x512_S2048x1_S16x2048x512_02_1_n_n_1_1_161512 : GatherDims S16x4096x512 S2048x1 S16x2048x512 where
  offsetDims := [0, 2]
  collapsedSliceDims := [1]
  operandBatchingDims := []
  startIndicesBatchingDims := []
  startIndexMap := [1]
  indexVectorDim := 1
  sliceSizes := ![16, 1, 512]
  wf := gather_S16x4096x512_S2048x1_S16x2048x512_02_1_n_n_1_1_161512_wf
def dot_S32768x512_S512x256_S32768x256_1_0_0_1_n_n : DotDims S32768x512 S512x256 S32768x256 where
  lhsContracting := [1]
  rhsContracting := [0]
  lhsNonContracting := [0]
  rhsNonContracting := [1]
  lhsBatch := []
  rhsBatch := []
  wf := dot_S32768x512_S512x256_S32768x256_1_0_0_1_n_n_wf
def dot_S32768x256_S256x256_S32768x256_1_0_0_1_n_n : DotDims S32768x256 S256x256 S32768x256 where
  lhsContracting := [1]
  rhsContracting := [0]
  lhsNonContracting := [0]
  rhsNonContracting := [1]
  lhsBatch := []
  rhsBatch := []
  wf := dot_S32768x256_S256x256_S32768x256_1_0_0_1_n_n_wf

class Facts : Prop extends Facts₀ where

variable [Facts]
-- ==== Proof.Spec.lean ====
/-
  The function both programs compute, stated once over the argument arrays.

  A feature map feat : [16, 512, 64, 64] is read as 16 × 4096 columns of 512 channels (position pos = 64·h + w).
  A column x goes through a two-layer perceptron, hidden n = max (∑ k, w1 n k · x k + b1 n) 0 and
  y n = ∑ k, w2 n k · hidden k + b2 n, and is then divided by its Euclidean norm plus a fixed small number:
  y n / (√(∑ k, y k · y k) + ε).  The result has one row per (image b, sample p): the normalised output of the
  column at the position the p-th index word names.  An index word is read the way a Python index is: a negative
  word counts from the end (4096 is added), and the position is then read signed and clamped into [0, 4095], which
  is what a gather does with its start index.
-/
import Idealize.ShloMosaic.PureOps.Ideal
import Idealize.ShloMosaic.PureOps.Ideal.Laws
import Idealize.ShloMosaic.Lib.ValueIdx

noncomputable section

namespace Cert.PatchMlp

open Idealize.ShloMosaic Idealize.ShloMosaic.ValueIdx

/-- The hidden layer of one column: the first linear map, its bias, and the rectifier. -/
def hidden (w1 : Fin 256 → Fin 512 → EReal) (b1 : Fin 256 → EReal) (x : Fin 512 → EReal) (n : Fin 256) : EReal :=
  max (∑ k : Fin 512, w1 n k * x k + b1 n) (Ideal.ofBits .f32 0x00000000#32)

/-- The second linear map on the hidden layer. -/
def outLin (w1 : Fin 256 → Fin 512 → EReal) (b1 : Fin 256 → EReal) (w2 : Fin 256 → Fin 256 → EReal) (b2 : Fin 256 → EReal)
    (x : Fin 512 → EReal) (n : Fin 256) : EReal :=
  ∑ k : Fin 256, w2 n k * hidden w1 b1 x k + b2 n

/-- The column's output divided by (its Euclidean norm plus ε). -/
def normalized (w1 : Fin 256 → Fin 512 → EReal) (b1 : Fin 256 → EReal) (w2 : Fin 256 → Fin 256 → EReal) (b2 : Fin 256 → EReal)
    (x : Fin 512 → EReal) (n : Fin 256) : EReal :=
  Ideal.div (outLin w1 b1 w2 b2 x n)
    (Ideal.sqrt (∑ k : Fin 256, outLin w1 b1 w2 b2 x k * outLin w1 b1 w2 b2 x k) + Ideal.ofBits .f32 0x33D6BF95#32)

/-- An index word as both programs first rewrite it: 4096 is added to a negative word. -/
def wrapWord (w : BitVec 32) : BitVec 32 :=
  Scalar.select (IntOp.cmpi .slt w 0#32) (IntOp.addi w 4096#32) w

/-- The position a word names: the rewritten word read signed and clamped into [0, 4095]. -/
def rowOf (w : BitVec 32) : Fin 4096 := ⟨min (wrapWord w).toInt.toNat 4095, by omega⟩

/-- The 512 channels of image b at position pos = 64·h + w. -/
def featCol (feat : (⟨4, ![16, 512, 64, 64]⟩ : Shape).Idx → EReal) (b : Fin 16) (pos : Fin 4096) (k : Fin 512) : EReal :=
  feat (ix4 b k (⟨pos.val / 64, by omega⟩ : Fin 64) (⟨pos.val % 64, by omega⟩ : Fin 64))

/-- The perceptron and the normalisation over the weight arrays as the programs hold them. -/
def colOut (w1 : (⟨2, ![256, 512]⟩ : Shape).Idx → EReal) (b1 : (⟨1, ![256]⟩ : Shape).Idx → EReal)
    (w2 : (⟨2, ![256, 256]⟩ : Shape).Idx → EReal) (b2 : (⟨1, ![256]⟩ : Shape).Idx → EReal)
    (x : Fin 512 → EReal) (n : Fin 256) : EReal :=
  normalized (fun n k => w1 (ix2 n k)) (fun n => b1 (ix1 n)) (fun n k => w2 (ix2 n k)) (fun n => b2 (ix1 n)) x n

/-- Every position of every image put through the perceptron: the [16, 4096, 256] array of normalised outputs. -/
def dense (feat : (⟨4, ![16, 512, 64, 64]⟩ : Shape).Idx → EReal)
    (w1 : (⟨2, ![256, 512]⟩ : Shape).Idx → EReal) (b1 : (⟨1, ![256]⟩ : Shape).Idx → EReal)
    (w2 : (⟨2, ![256, 256]⟩ : Shape).Idx → EReal) (b2 : (⟨1, ![256]⟩ : Shape).Idx → EReal) :
    (⟨3, ![16, 4096, 256]⟩ : Shape).Idx → EReal :=
  fun i => colOut w1 b1 w2 b2 (featCol feat (i 0) (i 1)) (i 2)

/-- THE RESULT: row r = 2048·b + p holds the normalised output of image b's column at the position word p names. -/
def result (feat : (⟨4, ![16, 512, 64, 64]⟩ : Shape).Idx → EReal) (pid : (⟨1, ![2048]⟩ : Shape).Idx → BitVec 32)
    (w1 : (⟨2, ![256, 512]⟩ : Shape).Idx → EReal) (b1 : (⟨1, ![256]⟩ : Shape).Idx → EReal)
    (w2 : (⟨2, ![256, 256]⟩ : Shape).Idx → EReal) (b2 : (⟨1, ![256]⟩ : Shape).Idx → EReal) :
    (⟨2, ![32768, 256]⟩ : Shape).Idx → EReal :=
  fun i => colOut w1 b1 w2 b2
    (featCol feat (⟨(i 0).val / 2048, by have h : (i 0).val < 32768 := (i 0).isLt; omega⟩ : Fin 16)
      (rowOf (pid (ix1 (⟨(i 0).val % 2048, by omega⟩ : Fin 2048))))) (i 1)

/-- A signed 32-bit word between -4096 and 4095 is, once rewritten, between 0 and 4095: the range test of a
    filling take passes. -/
theorem wrapWord_inRange (w : BitVec 32) (hlo : IntOp.cmpi .sge w 4294963200#32 = 1#1) (hhi : IntOp.cmpi .slt w 4096#32 = 1#1) :
    IntOp.cmpi .sge (wrapWord w) 0#32 = 1#1 ∧ IntOp.cmpi .sle (wrapWord w) 4095#32 = 1#1 := by
  have ob : ∀ b : Bool, BitVec.ofBool b = 1#1 ↔ b = true := by decide
  have c1 : (4294963200#32 : BitVec 32).toInt = -4096 := by decide
  have c2 : (4096#32 : BitVec 32).toInt = 4096 := by decide
  have c3 : (0#32 : BitVec 32).toInt = 0 := by decide
  have c4 : (4095#32 : BitVec 32).toInt = 4095 := by decide
  simp only [IntOp.cmpi, ob, BitVec.sle, BitVec.slt, decide_eq_true_eq, c1, c2] at hlo hhi
  unfold wrapWord
  by_cases hneg : w.toInt < 0
  · have hs : IntOp.cmpi .slt w 0#32 = 1#1 := by
      simp only [IntOp.cmpi, ob, BitVec.slt, decide_eq_true_eq, c3]; exact hneg
    rw [hs, select_one]
    have ha : (IntOp.addi w 4096#32).toInt = w.toInt + 4096 := by
      unfold IntOp.addi
      rw [BitVec.toInt_add, c2, Int.bmod_def]
      split <;> omega
    simp only [IntOp.cmpi, ob, BitVec.sle, decide_eq_true_eq, c3, c4, ha]
    omega
  · have hs : IntOp.cmpi .slt w 0#32 = 0#1 := by
      apply eq_zero_of_ne_one
      simp only [IntOp.cmpi, ob, BitVec.slt, decide_eq_true_eq, c3]; exact hneg
    rw [hs, select_zero]
    simp only [IntOp.cmpi, ob, BitVec.sle, decide_eq_true_eq, c3, c4]
    omega

end Cert.PatchMlp

end
-- ==== Proof.PreRange.lean ====
/-
  What the precondition says of the index words.

  The precondition is a conjunction: five "every element is finite" tests of the float arrays and, last, two tests
  of the index array, "every word is at least -4096" and "every word is below 4096", each an `and` over the whole
  array.  If the conjunction is 1 then each of the two index tests is 1, and an `and` over an array that came out 1
  met a 1 at every element: every index word passes both compares.
-/
import proofs.«422646_j42279658062096_3_alg».proof.Pre_finite_inputs
import proofs.«422646_j42279658062096_3_alg».proof.Proof.Gen.Pre_finite_inputs
import Idealize.ShloMosaic.Lib.ReduceAll
import Idealize.ShloMosaic.Lib.ValueIdx

noncomputable section

namespace Cert.PreRange

open Idealize.ShloMosaic Cert.Pre_finite_inputs

/-- Under the precondition every index word w satisfies -4096 ≤ w (signed) and w < 4096 (signed). -/
theorem word_in_range {F : FTy → Type} [FloatOps F] (a0 : FVec F S16x512x64x64 .f32) (a1 : IVec S2048 32)
    (a2 : FVec F S256x512 .f32) (a3 : FVec F S256 .f32) (a4 : FVec F S256x256 .f32) (a5 : FVec F S256 .f32)
    (h : Cert.Pre_finite_inputs.fn (F := F) a0 a1 a2 a3 a4 a5 = fun _ => 1#1) (p : S2048.Idx) :
    IntOp.cmpi .sge (a1 p) 4294963200#32 = 1#1 ∧ IntOp.cmpi .slt (a1 p) 4096#32 = 1#1 := by
  have h0 := congrFun h ValueIdx.ix0
  change IntOp.andi (IntOp.andi _ (Host.reduce IntOp.andi (cmpi .sge a1 _) _ _ _ ValueIdx.ix0))
    (Host.reduce IntOp.andi (cmpi .slt a1 _) _ _ _ ValueIdx.ix0) = 1#1 at h0
  obtain ⟨h27, h30⟩ := IntOp.andi_eq_one.1 h0
  obtain ⟨-, h26⟩ := IntOp.andi_eq_one.1 h27
  haveI : Subsingleton S_.Idx := ⟨fun a b => funext fun d => d.elim0⟩
  exact ⟨Host.reduce_andi_all _ _ _ _ _ h26 p, Host.reduce_andi_all _ _ _ _ _ h30 p⟩

end Cert.PreRange

end
-- ==== Proof.KernelBlock.lean ====
/-
  The kernel body's one stored value read at an index.

  A grid point holds a [1, 512, 2048] block of the feature map (512 channels of 2048 consecutive positions) and
  the whole weight and bias arrays.  Column q of the block goes through the perceptron and the normalisation, and
  the result is stored transposed: element (0, q, n) of the [1, 2048, 256] block stored is output n of column q.
  Reading the stored value at (0, q, n) therefore gives Spec's `normalized` of that column: the two matrix products
  are sums over their contracted axes, the sum of squares is a sum over the 256 outputs, the biases are columns
  broadcast along the positions, and the changes of float format are the identity at the extended reals.
-/
import proofs.«422646_j42279658062096_3_alg».proof.Proof.Gen.KernelIdeal.Skeleton
import proofs.«422646_j42279658062096_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx Cert.PatchMlp

/-- A column [a, 1] broadcast along a second axis to [a, b] reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

theorem lhs_first_0 (i : S256x2048.Idx) (q : dot_S256x512_S512x2048_S256x2048_1_0_0_1_n_n.contr.Idx) :
    (dot_S256x512_S512x2048_S256x2048_1_0_0_1_n_n.lhsIdx i q 0).val = (i 0).val := by
  unfold DotDims.lhsIdx
  rw [dif_neg (show ¬(0 : Fin S256x512.rank) ∈ dot_S256x512_S512x2048_S256x2048_1_0_0_1_n_n.lhsBatch by decide), dif_pos (show (0 : Fin S256x512.rank) ∈ dot_S256x512_S512x2048_S256x2048_1_0_0_1_n_n.lhsNonContracting by decide)]
  rfl
theorem lhs_first_1 (i : S256x2048.Idx) (q : dot_S256x512_S512x2048_S256x2048_1_0_0_1_n_n.contr.Idx) :
    (dot_S256x512_S512x2048_S256x2048_1_0_0_1_n_n.lhsIdx i q 1).val = (q ⟨0, by decide⟩).val :=
  dot_S256x512_S512x2048_S256x2048_1_0_0_1_n_n.lhsIdx_val_of_single rfl i q
theorem rhs_first_0 (i : S256x2048.Idx) (q : dot_S256x512_S512x2048_S256x2048_1_0_0_1_n_n.contr.Idx) :
    (dot_S256x512_S512x2048_S256x2048_1_0_0_1_n_n.rhsIdx i q 0).val = (q ⟨0, by decide⟩).val :=
  dot_S256x512_S512x2048_S256x2048_1_0_0_1_n_n.rhsIdx_val_of_single rfl i q
theorem rhs_first_1 (i : S256x2048.Idx) (q : dot_S256x512_S512x2048_S256x2048_1_0_0_1_n_n.contr.Idx) :
    (dot_S256x512_S512x2048_S256x2048_1_0_0_1_n_n.rhsIdx i q 1).val = (i 1).val := by
  unfold DotDims.rhsIdx
  rw [dif_neg (show ¬(1 : Fin S512x2048.rank) ∈ dot_S256x512_S512x2048_S256x2048_1_0_0_1_n_n.rhsBatch by decide), dif_pos (show (1 : Fin S512x2048.rank) ∈ dot_S256x512_S512x2048_S256x2048_1_0_0_1_n_n.rhsNonContracting by decide)]
  rfl

/-- The first product at (n, q), into a zero accumulator: the sum over its 512 contracted coordinates of left (n, k)
    times right (k, q). -/
theorem first_matmul_apply (l : FVec Ideal S256x512 .bf16) (r : FVec Ideal S512x2048 .bf16) (n : Fin 256) (q : Fin 2048) :
    matmul dot_S256x512_S512x2048_S256x2048_1_0_0_1_n_n none l r (constant (F := Ideal) S256x2048 .f32 0x00000000#32) (ix2 n q)
      = ∑ k : Fin 512, l (ix2 n k) * r (ix2 k q) := by
  simp only [matmul]
  rw [Ideal.matmul_constant_zero_apply, ← Equiv.sum_comp (contrEquiv1 dot_S256x512_S512x2048_S256x2048_1_0_0_1_n_n 512 rfl rfl).symm]
  refine Finset.sum_congr rfl fun k _ => ?_
  have hk := contrEquiv1_symm_val dot_S256x512_S512x2048_S256x2048_1_0_0_1_n_n 512 rfl rfl k
  have el : dot_S256x512_S512x2048_S256x2048_1_0_0_1_n_n.lhsIdx (ix2 n q) ((contrEquiv1 dot_S256x512_S512x2048_S256x2048_1_0_0_1_n_n 512 rfl rfl).symm k) = ix2 n k := funext fun a => Fin.ext (by
    match a with
    | ⟨0, _⟩ => exact lhs_first_0 _ _
    | ⟨1, _⟩ => exact (lhs_first_1 _ _).trans hk)
  have er : dot_S256x512_S512x2048_S256x2048_1_0_0_1_n_n.rhsIdx (ix2 n q) ((contrEquiv1 dot_S256x512_S512x2048_S256x2048_1_0_0_1_n_n 512 rfl rfl).symm k) = ix2 k q := funext fun a => Fin.ext (by
    match a with
    | ⟨0, _⟩ => exact (rhs_first_0 _ _).trans hk
    | ⟨1, _⟩ => exact rhs_first_1 _ _)
  rw [el, er]

theorem lhs_second_0 (i : S256x2048.Idx) (q : dot_S256x256_S256x2048_S256x2048_1_0_0_1_n_n.contr.Idx) :
    (dot_S256x256_S256x2048_S256x2048_1_0_0_1_n_n.lhsIdx i q 0).val = (i 0).val := by
  unfold DotDims.lhsIdx
  rw [dif_neg (show ¬(0 : Fin S256x256.rank) ∈ dot_S256x256_S256x2048_S256x2048_1_0_0_1_n_n.lhsBatch by decide), dif_pos (show (0 : Fin S256x256.rank) ∈ dot_S256x256_S256x2048_S256x2048_1_0_0_1_n_n.lhsNonContracting by decide)]
  rfl
theorem lhs_second_1 (i : S256x2048.Idx) (q : dot_S256x256_S256x2048_S256x2048_1_0_0_1_n_n.contr.Idx) :
    (dot_S256x256_S256x2048_S256x2048_1_0_0_1_n_n.lhsIdx i q 1).val = (q ⟨0, by decide⟩).val :=
  dot_S256x256_S256x2048_S256x2048_1_0_0_1_n_n.lhsIdx_val_of_single rfl i q
theorem rhs_second_0 (i : S256x2048.Idx) (q : dot_S256x256_S256x2048_S256x2048_1_0_0_1_n_n.contr.Idx) :
    (dot_S256x256_S256x2048_S256x2048_1_0_0_1_n_n.rhsIdx i q 0).val = (q ⟨0, by decide⟩).val :=
  dot_S256x256_S256x2048_S256x2048_1_0_0_1_n_n.rhsIdx_val_of_single rfl i q
theorem rhs_second_1 (i : S256x2048.Idx) (q : dot_S256x256_S256x2048_S256x2048_1_0_0_1_n_n.contr.Idx) :
    (dot_S256x256_S256x2048_S256x2048_1_0_0_1_n_n.rhsIdx i q 1).val = (i 1).val := by
  unfold DotDims.rhsIdx
  rw [dif_neg (show ¬(1 : Fin S256x2048.rank) ∈ dot_S256x256_S256x2048_S256x2048_1_0_0_1_n_n.rhsBatch by decide), dif_pos (show (1 : Fin S256x2048.rank) ∈ dot_S256x256_S256x2048_S256x2048_1_0_0_1_n_n.rhsNonContracting by decide)]
  rfl

/-- The second product at (n, q), into a zero accumulator: the sum over its 256 contracted coordinates of left (n, k)
    times right (k, q). -/
theorem second_matmul_apply (l : FVec Ideal S256x256 .bf16) (r : FVec Ideal S256x2048 .bf16) (n : Fin 256) (q : Fin 2048) :
    matmul dot_S256x256_S256x2048_S256x2048_1_0_0_1_n_n none l r (constant (F := Ideal) S256x2048 .f32 0x00000000#32) (ix2 n q)
      = ∑ k : Fin 256, l (ix2 n k) * r (ix2 k q) := by
  simp only [matmul]
  rw [Ideal.matmul_constant_zero_apply, ← Equiv.sum_comp (contrEquiv1 dot_S256x256_S256x2048_S256x2048_1_0_0_1_n_n 256 rfl rfl).symm]
  refine Finset.sum_congr rfl fun k _ => ?_
  have hk := contrEquiv1_symm_val dot_S256x256_S256x2048_S256x2048_1_0_0_1_n_n 256 rfl rfl k
  have el : dot_S256x256_S256x2048_S256x2048_1_0_0_1_n_n.lhsIdx (ix2 n q) ((contrEquiv1 dot_S256x256_S256x2048_S256x2048_1_0_0_1_n_n 256 rfl rfl).symm k) = ix2 n k := funext fun a => Fin.ext (by
    match a with
    | ⟨0, _⟩ => exact lhs_second_0 _ _
    | ⟨1, _⟩ => exact (lhs_second_1 _ _).trans hk)
  have er : dot_S256x256_S256x2048_S256x2048_1_0_0_1_n_n.rhsIdx (ix2 n q) ((contrEquiv1 dot_S256x256_S256x2048_S256x2048_1_0_0_1_n_n 256 rfl rfl).symm k) = ix2 k q := funext fun a => Fin.ext (by
    match a with
    | ⟨0, _⟩ => exact (rhs_second_0 _ _).trans hk
    | ⟨1, _⟩ => exact rhs_second_1 _ _)
  rw [el, er]

/-- The sum over the 256 rows of a [256, 2048] array, at column q. -/
theorem rowSum_apply (v : FVec Ideal S256x2048 .f32) (hφ : FKind.Formats .f32)
    (hacc : (0x00000000#32 : BitVec 32) = FKind.add.neutral .f32 hφ) (q : Fin 2048) :
    multiReduction .add [0] S2048 v 0x00000000#32 reduces_S256x2048_S2048 hφ hacc (ix1 q) = ∑ k : Fin 256, v (ix2 k q) := by
  refine (Ideal.multiReduction_add_single v 0x00000000#32 reduces_S256x2048_S2048 hφ hacc (ix1 q)).trans ?_
  refine Finset.sum_congr rfl fun k _ => congrArg v ?_
  funext a
  refine Fin.ext ?_
  match a with
  | ⟨0, _⟩ => rfl
  | ⟨1, _⟩ => rfl

/-- The hidden layer of column q of the block, at output n. -/
theorem hidden_apply (x0 : FVec Ideal S1x512x2048 .f32) (w1 : FVec Ideal S256x512 .bf16) (b1 : FVec Ideal S256x1 .f32)
    (n : Fin 256) (q : Fin 2048) :
    maximumf (addf (matmul dot_S256x512_S512x2048_S256x2048_1_0_0_1_n_n none (shapeCast S256x512 w1 shapeCasts_S256x512_S256x512)
          (truncf .bf16 (shapeCast S512x2048 x0 shapeCasts_S1x512x2048_S512x2048) bitsLt_bf16_f32)
          (constant (F := Ideal) S256x2048 .f32 0x00000000#32))
        (broadcastTo S256x2048 (shapeCast S256x1 b1 shapeCasts_S256x1_S256x1) broadcasts_S256x1_S256x2048))
      (broadcast S256x2048 (Scalar.ofBits (F := Ideal) .f32 0x00000000#32)) (ix2 n q)
    = hidden (fun n k => w1 (ix2 n k)) (fun n => b1 (ix2 n (0 : Fin 1))) (fun k => x0 (ix3 (0 : Fin 1) k q)) n := by
  rw [maximumf_apply, addf_apply, first_matmul_apply, broadcastTo_a1_ab_apply, shapeCast_self, shapeCast_self, broadcast_apply]
  simp only [truncf_apply, shapeCast_1ab_ab_apply]
  rfl

/-- The hidden layer of every column of the block, as the body computes it. -/
abbrev hidStage (x0 : FVec Ideal S1x512x2048 .f32) (w1 : FVec Ideal S256x512 .bf16) (b1 : FVec Ideal S256x1 .f32) :
    FVec Ideal S256x2048 .f32 :=
  maximumf (addf (matmul dot_S256x512_S512x2048_S256x2048_1_0_0_1_n_n none (shapeCast S256x512 w1 shapeCasts_S256x512_S256x512)
        (truncf .bf16 (shapeCast S512x2048 x0 shapeCasts_S1x512x2048_S512x2048) bitsLt_bf16_f32)
        (constant (F := Ideal) S256x2048 .f32 0x00000000#32))
      (broadcastTo S256x2048 (shapeCast S256x1 b1 shapeCasts_S256x1_S256x1) broadcasts_S256x1_S256x2048))
    (broadcast S256x2048 (Scalar.ofBits (F := Ideal) .f32 0x00000000#32))

/-- The second linear map on the hidden layer, for every column of the block. -/
abbrev outStage (x0 : FVec Ideal S1x512x2048 .f32) (w1 : FVec Ideal S256x512 .bf16) (b1 : FVec Ideal S256x1 .f32)
    (w2 : FVec Ideal S256x256 .bf16) (b2 : FVec Ideal S256x1 .f32) : FVec Ideal S256x2048 .f32 :=
  addf (matmul dot_S256x256_S256x2048_S256x2048_1_0_0_1_n_n none (shapeCast S256x256 w2 shapeCasts_S256x256_S256x256)
      (truncf .bf16 (hidStage x0 w1 b1) bitsLt_bf16_f32) (constant (F := Ideal) S256x2048 .f32 0x00000000#32))
    (broadcastTo S256x2048 (shapeCast S256x1 b2 shapeCasts_S256x1_S256x1) broadcasts_S256x1_S256x2048)

/-- Output n of column q before the normalisation. -/
theorem outStage_apply (x0 : FVec Ideal S1x512x2048 .f32) (w1 : FVec Ideal S256x512 .bf16) (b1 : FVec Ideal S256x1 .f32)
    (w2 : FVec Ideal S256x256 .bf16) (b2 : FVec Ideal S256x1 .f32) (n : Fin 256) (q : Fin 2048) :
    outStage x0 w1 b1 w2 b2 (ix2 n q)
      = outLin (fun n k => w1 (ix2 n k)) (fun n => b1 (ix2 n (0 : Fin 1))) (fun n k => w2 (ix2 n k)) (fun n => b2 (ix2 n (0 : Fin 1)))
          (fun k => x0 (ix3 (0 : Fin 1) k q)) n := by
  unfold outStage
  rw [addf_apply, second_matmul_apply, broadcastTo_a1_ab_apply, shapeCast_self, shapeCast_self]
  simp only [truncf_apply]
  unfold outLin
  refine congrArg (· + b2 (ix2 n (0 : Fin 1))) (Finset.sum_congr rfl fun k _ => ?_)
  exact congrArg (w2 (ix2 n k) * ·) (hidden_apply x0 w1 b1 k q)

/-- THE STORED VALUE AT (0, q, n): the normalised output n of column q of the block. -/
theorem payload_apply (x0 : FVec Ideal S1x512x2048 .f32) (w1 : FVec Ideal S256x512 .bf16) (b1 : FVec Ideal S256x1 .f32)
    (w2 : FVec Ideal S256x256 .bf16) (b2 : FVec Ideal S256x1 .f32) (q : Fin 2048) (n : Fin 256) :
    k0_pay1 (F := Ideal) x0 w1 b1 w2 b2 (ix3 (0 : Fin 1) q n)
      = normalized (fun n k => w1 (ix2 n k)) (fun n => b1 (ix2 n (0 : Fin 1))) (fun n k => w2 (ix2 n k)) (fun n => b2 (ix2 n (0 : Fin 1)))
          (fun k => x0 (ix3 (0 : Fin 1) k q)) n := by
  have hpay : k0_pay1 (F := Ideal) x0 w1 b1 w2 b2
      = shapeCast S1x2048x256 (transpose S2048x256 [1, 0]
          (divf (outStage x0 w1 b1 w2 b2)
            (broadcastTo S256x2048
              (addf (sqrt (shapeCast S1x2048
                  (multiReduction .add [0] S2048 (mulf (outStage x0 w1 b1 w2 b2) (outStage x0 w1 b1 w2 b2)) 0x00000000#32
                    reduces_S256x2048_S2048 (.inl rfl) rfl) shapeCasts_S2048_S1x2048))
                (broadcast S1x2048 (Scalar.ofBits (F := Ideal) .f32 0x33D6BF95#32)))
              broadcasts_S1x2048_S256x2048))
          transposes_S256x2048_p1_0_S2048x256) shapeCasts_S2048x256_S1x2048x256 := rfl
  rw [hpay, shapeCast_ab_1ab_apply, transpose_ix2_apply, divf_apply, broadcastTo_1b_ab_apply, addf_apply, broadcast_apply]
  show Ideal.div _ (Ideal.sqrt (shapeCast S1x2048 _ shapeCasts_S2048_S1x2048 (ix2 (0 : Fin 1) q)) + _) = _
  rw [shapeCast_a_1a_apply]
  unfold normalized
  refine congrArg₂ Ideal.div (outStage_apply x0 w1 b1 w2 b2 n q) ?_
  refine congrArg (fun s => Ideal.sqrt s + Ideal.ofBits .f32 0x33D6BF95#32) ?_
  refine (rowSum_apply (mulf (outStage x0 w1 b1 w2 b2) (outStage x0 w1 b1 w2 b2)) (.inl rfl) rfl q).trans ?_
  refine Finset.sum_congr rfl fun k _ => ?_
  rw [mulf_apply, outStage_apply]

end Cert.KernelIdeal.Block

end
-- ==== Proof.KernelArray.lean ====
/-
  The kernel's region output as one array.

  The grid has 16 × 2 points; point (b, t) reads channels × positions block (b, ·, 2048 t … 2048 t + 2047) of the
  feature map reshaped to [16, 512, 4096] and writes rows 2048 t … 2048 t + 2047 of image b of the [16, 4096, 256]
  output.  Each stored element is the normalised perceptron output of one column (KernelBlock), the blocks tile
  the output, so the output array after the region is Spec's `dense` of the argument arrays.
-/
import proofs.«422646_j42279658062096_3_alg».proof.Proof.Gen.KernelIdeal.Frame
import proofs.«422646_j42279658062096_3_alg».proof.Proof.KernelBlock
import proofs.«422646_j42279658062096_3_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Dense

open Cert.KernelIdeal Cert.KernelIdeal.Gen Idealize.ShloMosaic Idealize.ShloMosaic.TcCoe Idealize.SL.Sem
open Idealize.ShloMosaic.ValueIdx Cert.PatchMlp Cert.KernelIdeal.Block
open Idealize.ShloMosaic.Pipeline (Dat)

variable (m : (ℓ : Loc nD τ sig) → Buf (Elt Ideal) ℓ)

/-! ## The arrays the windows stage, as the region finds them -/

/-- The feature map reshaped to [16, 512, 4096]. -/
theorem V_feat (c : Dev nD) : (V m c main_v0 : S16x512x4096.Idx → EReal)
    = shapeCast S16x512x4096 (m ((c : Thread nD τ).loc main_arg0)) shapeCasts_S16x512x64x64_S16x512x4096 := by
  show StableHlo.after hostOps0 (fun b => m (c, b)) (Proc.devRef .tc main_v0) = _
  after_results
  rfl

/-- The first weight matrix (its change of float format is the identity at the extended reals). -/
theorem V_w1 (c : Dev nD) : (V m c main_v1 : S256x512.Idx → EReal) = m ((c : Thread nD τ).loc main_arg2) := by
  show StableHlo.after hostOps0 (fun b => m (c, b)) (Proc.devRef .tc main_v1) = _
  after_results
  rfl

/-- The second weight matrix. -/
theorem V_w2 (c : Dev nD) : (V m c main_v2 : S256x256.Idx → EReal) = m ((c : Thread nD τ).loc main_arg4) := by
  show StableHlo.after hostOps0 (fun b => m (c, b)) (Proc.devRef .tc main_v2) = _
  after_results
  rfl

/-- The first bias as a column. -/
theorem V_b1 (c : Dev nD) : (V m c main_v3 : S256x1.Idx → EReal)
    = shapeCast S256x1 (m ((c : Thread nD τ).loc main_arg3)) shapeCasts_S256_S256x1 := by
  show StableHlo.after hostOps0 (fun b => m (c, b)) (Proc.devRef .tc main_v3) = _
  after_results
  rfl

/-- The second bias as a column. -/
theorem V_b2 (c : Dev nD) : (V m c main_v4 : S256x1.Idx → EReal)
    = shapeCast S256x1 (m ((c : Thread nD τ).loc main_arg5)) shapeCasts_S256_S256x1 := by
  show StableHlo.after hostOps0 (fun b => m (c, b)) (Proc.devRef .tc main_v4) = _
  after_results
  rfl

/-- A vector [a] cast to a column [a, 1] reads, at (i, u), the vector at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The feature map reshaped to [16, 512, 4096] reads, at (b, k, pos), channel k of image b's column at pos. -/
theorem reshaped_feat_apply (feat : S16x512x64x64.Idx → EReal) (b : Fin 16) (k : Fin 512) (pos : Fin 4096) :
    shapeCast S16x512x4096 feat shapeCasts_S16x512x64x64_S16x512x4096 (ix3 b k pos) = featCol feat b pos k := by
  unfold featCol
  refine shapeCast_apply feat _ _ _ ?_
  rw [Shape.rowMajor_val_four, Shape.rowMajor_val_three]
  show ((b.val * 512 + k.val) * 64 + pos.val / 64) * 64 + pos.val % 64 = (b.val * 512 + k.val) * 4096 + pos.val
  omega

/-- The index maps, decided over the grid: the feature window moves with the output window (image b on axis 0, tile
    t on the position axis), the weight and bias windows stay at their one block. -/
theorem idx_facts : ∀ t : Fin cfg0.N,
    win0_0.index t (0 : Fin 3) = win0_5.index t (0 : Fin 3) ∧ win0_0.index t (1 : Fin 3) = 0
    ∧ win0_0.index t (2 : Fin 3) = win0_5.index t (1 : Fin 3) ∧ win0_5.index t (2 : Fin 3) = 0
    ∧ win0_5.index t (0 : Fin 3) ≤ 15 ∧ win0_5.index t (1 : Fin 3) ≤ 1
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Every (image, tile) pair is some point's output block. -/
theorem idx_onto : ∀ (q0 : Fin 16) (q1 : Fin 2), ∃ t : Fin cfg0.N, win0_5.index t = ![q0.val, q1.val, 0] :=
  (by decide +kernel : ∀ (q0 : Fin 16) (q1 : Fin 2), ∃ t : Fin grid0.N, win0_5.index t = ![q0.val, q1.val, 0])

/-! ## What a point's input blocks hold -/

theorem hz3 : (![0, 0, 0] : Fin 3 → Nat) = fun _ => 0 := funext fun a => by fin_cases a <;> rfl
theorem hz2 : (![0, 0] : Fin 2 → Nat) = fun _ => 0 := funext fun a => by fin_cases a <;> rfl

/-- The output block's image and tile at point t, as coordinates of the output array. -/
def imgOf (t : Fin cfg0.N) : Fin 16 := ⟨win0_5.index t (0 : Fin 3), by have := (idx_facts t).2.2.2.2.1; omega⟩
def posOf (t : Fin cfg0.N) (q : Fin 2048) : Fin 4096 :=
  ⟨win0_5.index t (1 : Fin 3) * 2048 + q.val, by have := (idx_facts t).2.2.2.2.2.1; have := q.isLt; omega⟩

/-- Channel k of position q of point t's feature block is channel k of the column at (image, 2048·tile + q). -/
theorem featBlock_apply (c : Dev nD) (t : Fin cfg0.N) (k : Fin 512) (q : Fin 2048) :
    iblk m c 0 t (ix3 (0 : Fin 1) k q) = featCol (m ((c : Thread nD τ).loc main_arg0)) (imgOf t) (posOf t q) k := by
  show V m c main_v0 (((cfg0.win 0).blk t).view.emb (ix3 (0 : Fin 1) k q)) = _
  rw [V_feat, ← reshaped_feat_apply]
  refine congrArg _ (funext fun a => Fin.ext ?_)
  obtain ⟨e0, e1, e2, -⟩ := idx_facts t
  match a with
  | ⟨0, _⟩ => show win0_0.index t (0 : Fin 3) * 1 + 1 * 0 = win0_5.index t (0 : Fin 3); omega
  | ⟨1, _⟩ => show win0_0.index t (1 : Fin 3) * 512 + 1 * k.val = k.val; omega
  | ⟨2, _⟩ => show win0_0.index t (2 : Fin 3) * 2048 + 1 * q.val = win0_5.index t (1 : Fin 3) * 2048 + q.val; omega

/-- The weight blocks are the whole weight matrices. -/
theorem w1Block_apply (c : Dev nD) (t : Fin cfg0.N) (n : Fin 256) (k : Fin 512) :
    iblk m c 1 t (ix2 n k) = m ((c : Thread nD τ).loc main_arg2) (ix2 n k) := by
  show V m c main_v1 (((cfg0.win 1).blk t).view.emb (ix2 n k)) = _
  rw [V_w1]
  refine congrArg _ (funext fun a => Fin.ext ?_)
  obtain ⟨-, -, -, -, -, -, e0, e1, -⟩ := idx_facts t
  match a with
  | ⟨0, _⟩ => show win0_1.index t (0 : Fin 2) * 256 + 1 * n.val = n.val; omega
  | ⟨1, _⟩ => show win0_1.index t (1 : Fin 2) * 512 + 1 * k.val = k.val; omega

theorem w2Block_apply (c : Dev nD) (t : Fin cfg0.N) (n : Fin 256) (k : Fin 256) :
    iblk m c 2 t (ix2 n k) = m ((c : Thread nD τ).loc main_arg4) (ix2 n k) := by
  show V m c main_v2 (((cfg0.win 2).blk t).view.emb (ix2 n k)) = _
  rw [V_w2]
  refine congrArg _ (funext fun a => Fin.ext ?_)
  obtain ⟨-, -, -, -, -, -, -, -, e0, e1, -⟩ := idx_facts t
  match a with
  | ⟨0, _⟩ => show win0_2.index t (0 : Fin 2) * 256 + 1 * n.val = n.val; omega
  | ⟨1, _⟩ => show win0_2.index t (1 : Fin 2) * 256 + 1 * k.val = k.val; omega

/-- The bias blocks are the bias vectors, held as columns. -/
theorem b1Block_apply (c : Dev nD) (t : Fin cfg0.N) (n : Fin 256) :
    iblk m c 3 t (ix2 n (0 : Fin 1)) = m ((c : Thread nD τ).loc main_arg3) (ix1 n) := by
  show V m c main_v3 (((cfg0.win 3).blk t).view.emb (ix2 n (0 : Fin 1))) = _
  rw [V_b1, ← shapeCast_a_a1_apply (m ((c : Thread nD τ).loc main_arg3)) shapeCasts_S256_S256x1 n (0 : Fin 1)]
  refine congrArg _ (funext fun a => Fin.ext ?_)
  obtain ⟨-, -, -, -, -, -, -, -, -, -, e0, e1, -⟩ := idx_facts t
  match a with
  | ⟨0, _⟩ => show win0_3.index t (0 : Fin 2) * 256 + 1 * n.val = n.val; omega
  | ⟨1, _⟩ => show win0_3.index t (1 : Fin 2) * 1 + 1 * 0 = 0; omega

theorem b2Block_apply (c : Dev nD) (t : Fin cfg0.N) (n : Fin 256) :
    iblk m c 4 t (ix2 n (0 : Fin 1)) = m ((c : Thread nD τ).loc main_arg5) (ix1 n) := by
  show V m c main_v4 (((cfg0.win 4).blk t).view.emb (ix2 n (0 : Fin 1))) = _
  rw [V_b2, ← shapeCast_a_a1_apply (m ((c : Thread nD τ).loc main_arg5)) shapeCasts_S256_S256x1 n (0 : Fin 1)]
  refine congrArg _ (funext fun a => Fin.ext ?_)
  obtain ⟨-, -, -, -, -, -, -, -, -, -, -, -, e0, e1⟩ := idx_facts t
  match a with
  | ⟨0, _⟩ => show win0_4.index t (0 : Fin 2) * 256 + 1 * n.val = n.val; omega
  | ⟨1, _⟩ => show win0_4.index t (1 : Fin 2) * 1 + 1 * 0 = 0; omega

/-! ## What a point writes back, and the array after the region -/

/-- The dense array of the argument arrays. -/
abbrev denseOf (c : Dev nD) : S16x4096x256.Idx → EReal :=
  dense (m ((c : Thread nD τ).loc main_arg0)) (m ((c : Thread nD τ).loc main_arg2)) (m ((c : Thread nD τ).loc main_arg3))
    (m ((c : Thread nD τ).loc main_arg4)) (m ((c : Thread nD τ).loc main_arg5))

/-- WHAT POINT t WRITES BACK is block t of the dense array. -/
theorem flushed_eq (c : Dev nD) (t : Fin cfg0.N) :
    (dats m 0 c).flushed 5 t = ((cfg0.win 5).blk t).view.read (Elt Ideal) (denseOf m c) := by
  show (cfg0.win 5).cut (grid0.coords t) ((dats m 0 c).after 5 t) = _
  rw [after0_5]
  unfold out0_5
  rw [View.canon_unit_zero hz3]
  simp only [View.ld_unit_zero (S := S1x512x2048) hz3, View.ld_unit_zero (S := S256x512) hz2,
    View.ld_unit_zero (S := S256x1) hz2, View.ld_unit_zero (S := S256x256) hz2]
  funext j
  obtain ⟨u, q, n, rfl⟩ : ∃ (u : Fin 1) (q : Fin 2048) (n : Fin 256), j = ix3 u q n := ⟨j 0, j 1, j 2, eq_ix3 j⟩
  have hu : u = 0 := Subsingleton.elim _ _
  subst hu
  show k0_pay1 (F := Ideal) (iblk m c 0 t) (iblk m c 1 t) (iblk m c 3 t) (iblk m c 2 t) (iblk m c 4 t) (ix3 (0 : Fin 1) q n)
    = denseOf m c (((cfg0.win 5).blk t).view.emb (ix3 (0 : Fin 1) q n))
  refine (payload_apply (iblk m c 0 t) (iblk m c 1 t) (iblk m c 3 t) (iblk m c 2 t) (iblk m c 4 t) q n).trans ?_
  have hemb : ((cfg0.win 5).blk t).view.emb (ix3 (0 : Fin 1) q n) = ix3 (imgOf t) (posOf t q) n := by
    funext a
    refine Fin.ext ?_
    obtain ⟨-, -, -, e3, -⟩ := idx_facts t
    match a with
    | ⟨0, _⟩ => show win0_5.index t (0 : Fin 3) * 1 + 1 * 0 = win0_5.index t (0 : Fin 3); omega
    | ⟨1, _⟩ => show win0_5.index t (1 : Fin 3) * 2048 + 1 * q.val = win0_5.index t (1 : Fin 3) * 2048 + q.val; omega
    | ⟨2, _⟩ => show win0_5.index t (2 : Fin 3) * 256 + 1 * n.val = n.val; omega
  rw [hemb]
  show _ = colOut _ _ _ _ (featCol _ (imgOf t) (posOf t q)) n
  unfold colOut
  simp only [featBlock_apply, w1Block_apply, w2Block_apply, b1Block_apply, b2Block_apply]

/-- An index of the output array is in point t's block iff each coordinate is in the block's range on its axis. -/
theorem mem_blk (t : Fin cfg0.N) (i : S16x4096x256.Idx) :
    i ∈ ((cfg0.win 5).blk t).view.set ↔ ∀ a : Fin 3, win0_5.index t a * S1x2048x256.size a ≤ (i a).val
      ∧ (i a).val < win0_5.index t a * S1x2048x256.size a + S1x2048x256.size a := by
  show i ∈ ((View.whole main_v5).slice (win0_5.rect t)).set ↔ _
  rw [View.set_slice_whole, Rect.mem_set_unit]
  exact Iff.rfl

/-- The output blocks tile the output array: index (b, pos, n) is in the block of the point with image b and tile pos / 2048. -/
theorem cover (i : S16x4096x256.Idx) :
    ∃ t : Fin cfg0.N, (cfg0.win 5).flush t = true ∧ i ∈ ((cfg0.win 5).blk t).view.set := by
  have hi0 : (i 0).val < 16 := (i 0).isLt
  have hi1 : (i 1).val < 4096 := (i 1).isLt
  have hi2 : (i 2).val < 256 := (i 2).isLt
  obtain ⟨t, ht⟩ := idx_onto ⟨(i 0).val, hi0⟩ ⟨(i 1).val / 2048, by omega⟩
  have q0 : win0_5.index t (0 : Fin 3) = (i 0).val := congrFun ht 0
  have q1 : win0_5.index t (1 : Fin 3) = (i 1).val / 2048 := congrFun ht 1
  have q2 : win0_5.index t (2 : Fin 3) = 0 := congrFun ht 2
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 2048 ≤ (i 1).val ∧ (i 1).val < win0_5.index t (1 : Fin 3) * 2048 + 2048; omega
  | ⟨2, _⟩ => show win0_5.index t (2 : Fin 3) * 256 ≤ (i 2).val ∧ (i 2).val < win0_5.index t (2 : Fin 3) * 256 + 256; omega

/-- THE OUTPUT ARRAY AFTER THE REGION is the dense array of the argument arrays. -/
theorem final (c : Dev nD) : (dats m 0 c).arrAt 5 cfg0.N = denseOf m c :=
  (dats m 0 c).arrAt_eq_of_cover 5 (denseOf m c) (fun t _ => flushed_eq m c t) cover

end Cert.KernelIdeal.Dense

end
-- ==== Proof.LibMidGather.lean ====
/-
  A gather along the MIDDLE axis of a rank-3 table, read at an index.

  `x[:, idx, :]` on a [B, N, C] table with one start word per gathered row (start indices [E, 1], result
  [B, E, C]): the outer and inner axes are offset axes carried whole, the middle axis is collapsed and is the one
  the start word addresses.  Result element (b, e, c) is the table at (b, the start word of e read signed and
  clamped into [0, N - 1], c).
-/
import Idealize.ShloMosaic.PureOps.Ideal
import Idealize.ShloMosaic.Lib.ValueIdx

noncomputable section

namespace Idealize.ShloMosaic.MidGather

open Idealize.ShloMosaic Idealize.ShloMosaic.ValueIdx

/-- The dimension numbers of a middle-axis gather: operand [B, N, C], start indices [E, 1], result [B, E, C]. -/
abbrev midGather (B N E C : Nat)
    (wf : GatherDims.WF ⟨3, ![B, N, C]⟩ ⟨2, ![E, 1]⟩ ⟨3, ![B, E, C]⟩ [0, 2] [1] [] [1] [] 1 ![B, 1, C]) :
    GatherDims ⟨3, ![B, N, C]⟩ ⟨2, ![E, 1]⟩ ⟨3, ![B, E, C]⟩ where
  offsetDims := [0, 2]
  collapsedSliceDims := [1]
  operandBatchingDims := []
  startIndicesBatchingDims := []
  startIndexMap := [1]
  indexVectorDim := 1
  sliceSizes := ![B, 1, C]
  wf := wf

/-- THE MIDDLE-AXIS GATHER READ AT (b, e, c): the table at outer coordinate b, the clamped start row of e, inner
    coordinate c. -/
theorem midGather_apply {α : Type} {B N E C w : Nat} (hN : 0 < N)
    (wf : GatherDims.WF ⟨3, ![B, N, C]⟩ ⟨2, ![E, 1]⟩ ⟨3, ![B, E, C]⟩ [0, 2] [1] [] [1] [] 1 ![B, 1, C])
    (x : (⟨3, ![B, N, C]⟩ : Shape).Idx → α) (idx : IVec ⟨2, ![E, 1]⟩ w) (b : Fin B) (e : Fin E) (c : Fin C) :
    Host.gather (midGather B N E C wf) x idx (ix3 b e c)
      = x (ix3 b (⟨min (idx (ix2 e (0 : Fin 1))).toInt.toNat (N - 1), by omega⟩ : Fin N) c) := by
  unfold Host.gather
  congr 1
  funext a
  refine Fin.ext ?_
  match a with
  | ⟨0, _⟩ =>
    show (midGather B N E C wf).start (ix3 b e c) idx 0 + (midGather B N E C wf).batchCoord (ix3 b e c) 0
      + (midGather B N E C wf).offCoord (ix3 b e c) 0 = b.val
    rw [GatherDims.batchCoord_eq_zero _ _ _ List.not_mem_nil]
    unfold GatherDims.start
    rw [dif_neg (show (0 : Fin 3) ∉ ([1] : List (Fin 3)) by decide)]
    simp only [Nat.add_zero, Nat.zero_add]
    unfold GatherDims.offCoord
    rw [dif_pos ((GatherDims.mem_sKept _ _).mpr ⟨(show (0 : Fin 3) ∉ ([1] : List (Fin 3)) by decide), List.not_mem_nil⟩)]
    rfl
  | ⟨1, _⟩ =>
    show (midGather B N E C wf).start (ix3 b e c) idx 1 + (midGather B N E C wf).batchCoord (ix3 b e c) 1
      + (midGather B N E C wf).offCoord (ix3 b e c) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (midGather B N E C wf).startIndexMap from List.mem_singleton.mpr rfl)]
    have hsi : (midGather B N E C wf).siIdx (ix3 b e c) ⟨List.idxOf (1 : Fin 3) (midGather B N E C wf).startIndexMap,
        List.idxOf_lt_length_iff.2 (List.mem_singleton.mpr rfl)⟩ = ix2 e (0 : Fin 1) := by
      funext b'; refine Fin.ext ?_
      match b' with
      | ⟨0, _⟩ => rfl
      | ⟨1, _⟩ => rfl
    rw [hsi]
    rfl
  | ⟨2, _⟩ =>
    show (midGather B N E C wf).start (ix3 b e c) idx 2 + (midGather B N E C wf).batchCoord (ix3 b e c) 2
      + (midGather B N E C wf).offCoord (ix3 b e c) 2 = c.val
    rw [GatherDims.batchCoord_eq_zero _ _ _ List.not_mem_nil]
    unfold GatherDims.start
    rw [dif_neg (show (2 : Fin 3) ∉ ([1] : List (Fin 3)) by decide)]
    simp only [Nat.add_zero, Nat.zero_add]
    unfold GatherDims.offCoord
    rw [dif_pos ((GatherDims.mem_sKept _ _).mpr ⟨(show (2 : Fin 3) ∉ ([1] : List (Fin 3)) by decide), List.not_mem_nil⟩)]
    rfl

end Idealize.ShloMosaic.MidGather

end
-- ==== Proof.KernelTail.lean ====
/-
  After the region: the take of the sampled rows, and the kernel's result.

  The host lines after the region take 2048 rows of each image out of the dense [16, 4096, 256] array.  Each index
  word is first rewritten as a Python index is (4096 added to a negative word).  The take is a FILLING take: it
  tests every rewritten word against the range [0, 4095], gathers with the words clamped into that range, and keeps
  the gathered row where the test passed and a fixed filler elsewhere; a final reshape lays the [16, 2048, 256]
  rows out as [32768, 256].  When every index word lies in [-4096, 4095] every test passes, so row 2048·b + p of the
  result is the dense array's row of image b at the position word p names: Spec's `result`.
-/
import proofs.«422646_j42279658062096_3_alg».proof.Proof.Gen.KernelIdeal.Frame
import proofs.«422646_j42279658062096_3_alg».proof.Proof.KernelArray
import proofs.«422646_j42279658062096_3_alg».proof.Proof.Spec
import proofs.«422646_j42279658062096_3_alg».proof.Proof.LibMidGather
import Idealize.ShloMosaic.Lib.StableHlo.Run
import Idealize.ShloMosaic.Lib.Pipeline.Value
import Idealize.ShloMosaic.Lib.ValueIdx
import Idealize.ShloMosaic.PureOps.Reduce

set_option maxRecDepth 16384

noncomputable section

namespace Cert.KernelIdeal.Tail

open Cert.KernelIdeal Cert.KernelIdeal.Gen Idealize.ShloMosaic Idealize.ShloMosaic.TcCoe Idealize.SL.Sem
open Idealize.ShloMosaic.ValueIdx Cert.PatchMlp Cert.KernelIdeal.Dense
open Idealize.ShloMosaic.Pipeline (Dat)

/-! ## The take as a function of the dense array and the index words -/

/-- The column of rewritten index words the take gathers with. -/
def startCol (pid : IVec S2048 32) : IVec S2048x1 32 :=
  broadcastInDim S2048x1 ![0] bcast_S2048_S2048x1_0
    (select (cmpi .slt pid (broadcastInDim S2048 ![] bcast_S_S2048 (constantI S_ 32 0#32)))
      (addi pid (broadcastInDim S2048 ![] bcast_S_S2048 (constantI S_ 32 4096#32))) pid)

/-- The range test of each rewritten word: 0 ≤ word and word ≤ 4095. -/
def inRange (pid : IVec S2048 32) : IVec S2048 1 :=
  Host.reduce IntOp.andi
    (andi (cmpi .sge (startCol pid) (broadcastInDim S2048x1 ![] bcast_S_S2048x1 (constantI S_ 32 0#32)))
      (cmpi .sle (startCol pid) (broadcastInDim S2048x1 ![0, 1] bcast_S1x1_S2048x1_0_1
        (broadcastInDim S1x1 ![1] bcast_S1_S1x1_1 (constantI S1 32 4095#32)))))
    (constantI S_ 1 1#1) reducesTo_S2048x1_S2048_d1 h_S_

/-- The filling take of rows of `D` and the final reshape. -/
def tailOf (D : FVec Ideal S16x4096x256 .f32) (pid : IVec S2048 32) : FVec Ideal S32768x256 .f32 :=
  shapeCast S32768x256
    (select (broadcastInDim S16x2048x256 ![1] bcast_S2048_S16x2048x256_1 (inRange pid))
      (Host.gather gather_S16x4096x256_S2048x1_S16x2048x256_02_1_n_n_1_1_161256 D (startCol pid))
      (broadcastInDim S16x2048x256 ![] bcast_S_S16x2048x256 (constant (F := Ideal) S_ .f32 0x7FC00000#32)))
    shapeCasts_S16x2048x256_S32768x256

set_option maxHeartbeats 2000000 in
/-- The host lines after the region, run from any buffer contents, leave the take of the dense buffer by the index
    buffer in the result buffer. -/
theorem after_tail (W : Valuation τ sig (Elt Ideal)) :
    StableHlo.after (List.flatten [hostOps1 (F := Ideal), hostOps1_1 (F := Ideal)]) W (Proc.devRef .tc main_v7)
      = tailOf (W (Proc.devRef .tc main_v5)) (W (Proc.devRef .tc main_arg1)) := by
  simp only [hostOps1, hostOps1_1, List.flatten_cons, List.flatten_nil, List.append_nil, List.cons_append, List.nil_append]
  after_results_simp
  rfl

/-! ## The range test passes on words in [-4096, 4095] -/

/-- A left fold by `and` from 1 over 1s is 1. -/
theorem foldl_andi_ones {ι : Type} (f : ι → BitVec 1) (hf : ∀ n, f n = 1#1) :
    ∀ l : List ι, l.foldl (fun r n => IntOp.andi r (f n)) 1#1 = 1#1
  | [] => rfl
  | a :: l => by
    have e : IntOp.andi (1#1) (1#1) = 1#1 := by decide
    rw [List.foldl_cons, hf a, e]
    exact foldl_andi_ones f hf l

/-- A reduction by `and` from 1 of an array of 1s is 1 everywhere. -/
theorem reduce_andi_ones {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_ones x hx _

/-- Row j of the start column is the rewritten index word of j. -/
theorem startCol_apply (pid : IVec S2048 32) (j : S2048x1.Idx) :
    startCol pid j = wrapWord (pid (ix1 (j 0))) := by
  unfold startCol
  rw [broadcastInDim_apply _ bcast_S2048_S2048x1_0 _ j (ix1 (j 0)) (fun a => match a with
    | ⟨0, _⟩ => by show (j 0).val = if (2048 : Nat) = 1 then 0 else (j 0).val; rw [if_neg (by decide)])]
  rfl

/-- Every word in [-4096, 4095] passes the range test. -/
theorem inRange_one (pid : IVec S2048 32)
    (hr : ∀ p : S2048.Idx, IntOp.cmpi .sge (pid p) 4294963200#32 = 1#1 ∧ IntOp.cmpi .slt (pid p) 4096#32 = 1#1)
    (p : S2048.Idx) : inRange pid p = 1#1 := by
  unfold inRange
  refine reduce_andi_ones _ _ _ _ p rfl (fun j => ?_)
  show IntOp.andi (IntOp.cmpi .sge (startCol pid j) 0#32) (IntOp.cmpi .sle (startCol pid j) 4095#32) = 1#1
  rw [startCol_apply]
  obtain ⟨h1, h2⟩ := wrapWord_inRange _ (hr (ix1 (j 0))).1 (hr (ix1 (j 0))).2
  rw [h1, h2]
  decide

/-! ## The take read at an index -/

/-- Row r = 2048·b + p of the take, when every word is in range, is the row of image b at the position word p names. -/
theorem tailOf_apply (D : FVec Ideal S16x4096x256 .f32) (pid : IVec S2048 32)
    (hr : ∀ p : S2048.Idx, IntOp.cmpi .sge (pid p) 4294963200#32 = 1#1 ∧ IntOp.cmpi .slt (pid p) 4096#32 = 1#1)
    (r : Fin 32768) (n : Fin 256) :
    tailOf D pid (ix2 r n)
      = D (ix3 (⟨r.val / 2048, by have h : r.val < 32768 := r.isLt; omega⟩ : Fin 16)
          (rowOf (pid (ix1 (⟨r.val % 2048, by omega⟩ : Fin 2048)))) n) := by
  have hr' : r.val < 32768 := r.isLt
  unfold tailOf
  rw [shapeCast_apply _ shapeCasts_S16x2048x256_S32768x256 (ix2 r n)
    (ix3 (⟨r.val / 2048, by omega⟩ : Fin 16) (⟨r.val % 2048, by omega⟩ : Fin 2048) n) (by
      rw [Shape.rowMajor_val_three, Shape.rowMajor_val_two]
      show (r.val / 2048 * 2048 + r.val % 2048) * 256 + n.val = r.val * 256 + n.val
      omega)]
  have hm : broadcastInDim S16x2048x256 ![1] bcast_S2048_S16x2048x256_1 (inRange pid)
      (ix3 (⟨r.val / 2048, by omega⟩ : Fin 16) (⟨r.val % 2048, by omega⟩ : Fin 2048) n) = 1#1 := by
    rw [broadcastInDim_apply _ bcast_S2048_S16x2048x256_1 _ _ (ix1 (⟨r.val % 2048, by omega⟩ : Fin 2048)) (fun a => match a with
      | ⟨0, _⟩ => by show r.val % 2048 = if (2048 : Nat) = 1 then 0 else r.val % 2048; rw [if_neg (by decide)])]
    exact inRange_one pid hr _
  rw [select_apply, hm, select_one]
  refine (MidGather.midGather_apply (B := 16) (N := 4096) (E := 2048) (C := 256) (by decide)
    Facts₀.gather_S16x4096x256_S2048x1_S16x2048x256_02_1_n_n_1_1_161256_wf D (startCol pid) _ _ n).trans ?_
  refine congrArg (fun pos => D (ix3 _ pos n)) (Fin.ext ?_)
  show min (startCol pid (ix2 _ (0 : Fin 1))).toInt.toNat (4096 - 1) = min (wrapWord _).toInt.toNat 4095
  rw [startCol_apply]

/-! ## The kernel's result -/

variable (m : (ℓ : Loc nD τ sig) → Buf (Elt Ideal) ℓ)

/-- THE KERNEL'S RESULT: with every index word in [-4096, 4095], what the host lines after the region leave in the
    result buffer is the specification's result of the argument arrays. -/
theorem tail_value (c : Dev nD)
    (hr : ∀ p : S2048.Idx, IntOp.cmpi .sge (m ((c : Thread nD τ).loc main_arg1) p) 4294963200#32 = 1#1
      ∧ IntOp.cmpi .slt (m ((c : Thread nD τ).loc main_arg1) p) 4096#32 = 1#1) :
    Pipeline.afterTail₀ cfgs (dats m) 0 (V0 m) [hostOps1, hostOps1_1] c main_v7
      = result (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  unfold Pipeline.afterTail₀
  refine (after_tail _).trans ?_
  have hD : Pipeline.withArrays (cfgs 0).spec c (V0 m c) (fun w => (dats m 0 c).arrAt w (cfgs 0).N) (Proc.devRef .tc main_v5)
      = denseOf m c :=
    (Pipeline.withArrays_arr spec0 launch0.win.arr_inj c _ _ 5).trans (final m c)
  have hP : Pipeline.withArrays (cfgs 0).spec c (V0 m c) (fun w => (dats m 0 c).arrAt w (cfgs 0).N) (Proc.devRef .tc main_arg1)
      = m ((c : Thread nD τ).loc main_arg1) :=
    (Pipeline.withArrays_of_ne _ c (V0 m c) _ main_arg1 (by exact (by decide : ∀ w, Pipeline.arrRef spec0 w ≠ main_arg1))).trans
      (V_main_arg1 m c)
  rw [hD, hP]
  funext i
  obtain ⟨r, n, rfl⟩ : ∃ (r : Fin 32768) (n : Fin 256), i = ix2 r n := ⟨i 0, i 1, eq_ix2 i⟩
  rw [tailOf_apply _ _ hr]
  rfl

end Cert.KernelIdeal.Tail

end
-- ==== Proof.RefValue.lean ====
/-
  The reference program's value is the specification's result.

  Row r = 2048·b + p of the reference's output is the two-layer perceptron and the normalisation applied to the
  column of image b at the position the p-th index word names; reading the program one operation at a time, at an
  index, gives exactly the specification's term.
-/
import proofs.«422646_j42279658062096_3_alg».proof.Proof.Gen.ReferenceIdeal.Read
import proofs.«422646_j42279658062096_3_alg».proof.Proof.Spec
import proofs.«422646_j42279658062096_3_alg».proof.Proof.LibMidGather

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.Read Cert.PatchMlp

/-- The wrapped index word: the reference's select of (word + 4096) on a negative word is the specification's. -/
theorem wrapped_word (x1 : (⟨S2048, .i32⟩ : BufTy).Contents (Elt Ideal)) (p : Fin 2048) :
    val_main_v7 (F := Ideal) x1 (ix2 p (0 : Fin 1)) = wrapWord (x1 (ix1 p)) := by
  have e7 : idx_main_v7 (ix2 p (0 : Fin 1)) = ix1 p :=
    funext fun a => Fin.ext (by match a with | ⟨0, _⟩ => rfl)
  rw [val_main_v7_apply, e7, val_main_v6_apply, val_main_v3_apply, val_main_v5_apply, val_main_v2_apply,
    val_main_v4_apply, val_main_c_apply, val_main_c_0_apply]
  rfl

/-- The transposed and flattened feature map at (b, pos, k) is the feature map at (b, k, pos / 64, pos % 64). -/
theorem table_apply (x0 : (⟨S16x512x64x64, .f32⟩ : BufTy).Contents (Elt Ideal)) (b : Fin 16) (pos : Fin 4096) (k : Fin 512) :
    val_main_v1 (F := Ideal) x0 (ix3 b pos k) = featCol x0 b pos k := by
  have e : idx_main_v0 (idx_main_v1 (ix3 b pos k))
      = ix4 b k (⟨pos.val / 64, by omega⟩ : Fin 64) (⟨pos.val % 64, by omega⟩ : Fin 64) :=
    funext fun a => Fin.ext (by
      have hb : b.val < 16 := b.isLt
      have hp : pos.val < 4096 := pos.isLt
      have hk : k.val < 512 := k.isLt
      match a with
      | ⟨0, _⟩ => show ((b.val * 4096 + pos.val) * 512 + k.val) / 2097152 = b.val; omega
      | ⟨1, _⟩ => show ((b.val * 4096 + pos.val) * 512 + k.val) % 512 = k.val; omega
      | ⟨2, _⟩ => show ((b.val * 4096 + pos.val) * 512 + k.val) / 32768 % 64 = pos.val / 64; omega
      | ⟨3, _⟩ => show ((b.val * 4096 + pos.val) * 512 + k.val) / 512 % 64 = pos.val % 64; omega)
  rw [val_main_v1_apply, val_main_v0_apply, e]
  rfl

/-- THE SAMPLED COLUMN: row r = 2048·b + p of the gathered table is image b's column at the position word p names. -/
theorem sampled_column (x0 : (⟨S16x512x64x64, .f32⟩ : BufTy).Contents (Elt Ideal)) (x1 : (⟨S2048, .i32⟩ : BufTy).Contents (Elt Ideal))
    (r : Fin 32768) (k : Fin 512) :
    val_main_v9 (F := Ideal) x0 x1 (ix2 r k)
      = featCol x0 (⟨r.val / 2048, by have h : r.val < 32768 := r.isLt; omega⟩ : Fin 16)
          (rowOf (x1 (ix1 (⟨r.val % 2048, by omega⟩ : Fin 2048)))) k := by
  have hr : r.val < 32768 := r.isLt
  have hk : k.val < 512 := k.isLt
  have e9 : idx_main_v9 (ix2 r k)
      = ix3 (⟨r.val / 2048, by omega⟩ : Fin 16) (⟨r.val % 2048, by omega⟩ : Fin 2048) k :=
    funext fun a => Fin.ext (by
      match a with
      | ⟨0, _⟩ => show (r.val * 512 + k.val) / 1048576 = r.val / 2048; omega
      | ⟨1, _⟩ => show (r.val * 512 + k.val) / 512 % 2048 = r.val % 2048; omega
      | ⟨2, _⟩ => show (r.val * 512 + k.val) % 512 = k.val; omega)
  rw [val_main_v9_apply, e9]
  unfold val_main_v8
  refine (MidGather.midGather_apply (B := 16) (N := 4096) (E := 2048) (C := 512) (by decide)
    Facts₀.gather_S16x4096x512_S2048x1_S16x2048x512_02_1_n_n_1_1_161512_wf
    (val_main_v1 (F := Ideal) x0) (val_main_v7 (F := Ideal) x1) _ _ k).trans ?_
  refine (table_apply x0 _ _ k).trans ?_
  refine congrArg (fun pos => featCol x0 _ pos k) (Fin.ext ?_)
  show min (BitVec.toInt (val_main_v7 (F := Ideal) x1 (ix2 _ (0 : Fin 1)))).toNat (4096 - 1) = min (wrapWord _).toInt.toNat 4095
  rw [wrapped_word]

/-- The column the reference reads for row r: image r / 2048 at the position word r % 2048 names. -/
abbrev column (x0 : (⟨S16x512x64x64, .f32⟩ : BufTy).Contents (Elt Ideal)) (x1 : (⟨S2048, .i32⟩ : BufTy).Contents (Elt Ideal))
    (r : Fin 32768) : Fin 512 → EReal :=
  featCol x0 (⟨r.val / 2048, by have h : r.val < 32768 := r.isLt; omega⟩ : Fin 16)
    (rowOf (x1 (ix1 (⟨r.val % 2048, by omega⟩ : Fin 2048))))

/-- THE HIDDEN LAYER: the first product with the transposed weights, the bias and the rectifier are the
    specification's hidden layer of the sampled column (the program multiplies x·w, the specification w·x). -/
theorem hidden_apply (x0 : (⟨S16x512x64x64, .f32⟩ : BufTy).Contents (Elt Ideal)) (x1 : (⟨S2048, .i32⟩ : BufTy).Contents (Elt Ideal))
    (x2 : (⟨S256x512, .f32⟩ : BufTy).Contents (Elt Ideal)) (x3 : (⟨S256, .f32⟩ : BufTy).Contents (Elt Ideal))
    (r : Fin 32768) (j : Fin 256) :
    val_main_v15 (F := Ideal) x0 x1 x2 x3 (ix2 r j)
      = Cert.PatchMlp.hidden (fun n k => x2 (ix2 n k)) (fun n => x3 (ix1 n)) (column x0 x1 r) j := by
  have el : ∀ k : Fin 512, lidx_main_v11 (ix2 r j) k = ix2 r k := fun k =>
    funext fun a => Fin.ext (by match a with | ⟨0, _⟩ => rfl | ⟨1, _⟩ => rfl)
  have er : ∀ k : Fin 512, idx_main_v10 (ridx_main_v11 (ix2 r j) k) = ix2 j k := fun k =>
    funext fun a => Fin.ext (by match a with | ⟨0, _⟩ => rfl | ⟨1, _⟩ => rfl)
  have eb : idx_main_v12 (idx_main_v13 (ix2 r j)) = ix1 j :=
    funext fun a => Fin.ext (by match a with | ⟨0, _⟩ => rfl)
  rw [val_main_v15_apply, val_main_v14_apply, val_main_v11_apply, val_main_v13_apply, val_main_v12_apply, eb,
    val_main_call0_v0_apply, val_main_call0_cst_apply]
  simp only [Ideal.maximumf_def, Ideal.addf_def, Ideal.ofBits_def]
  unfold Cert.PatchMlp.hidden
  refine congrArg (fun s => max (s + x3 (ix1 j)) (Ideal.ofBits .f32 0x00000000#32)) ?_
  refine Finset.sum_congr rfl fun k _ => ?_
  rw [el, val_main_v10_apply, er, sampled_column, mul_comm]

/-- THE OUTPUT BEFORE NORMALISATION: the second product with the transposed weights and its bias are the
    specification's second linear map on the hidden layer. -/
theorem outLin_apply (x0 : (⟨S16x512x64x64, .f32⟩ : BufTy).Contents (Elt Ideal)) (x1 : (⟨S2048, .i32⟩ : BufTy).Contents (Elt Ideal))
    (x2 : (⟨S256x512, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (r : Fin 32768) (n : Fin 256) :
    val_main_v20 (F := Ideal) x0 x1 x2 x3 x4 x5 (ix2 r n)
      = Cert.PatchMlp.outLin (fun n k => x2 (ix2 n k)) (fun n => x3 (ix1 n)) (fun n k => x4 (ix2 n k)) (fun n => x5 (ix1 n))
          (column x0 x1 r) n := by
  have el : ∀ k : Fin 256, lidx_main_v17 (ix2 r n) k = ix2 r k := fun k =>
    funext fun a => Fin.ext (by match a with | ⟨0, _⟩ => rfl | ⟨1, _⟩ => rfl)
  have er : ∀ k : Fin 256, idx_main_v16 (ridx_main_v17 (ix2 r n) k) = ix2 n k := fun k =>
    funext fun a => Fin.ext (by match a with | ⟨0, _⟩ => rfl | ⟨1, _⟩ => rfl)
  have eb : idx_main_v18 (idx_main_v19 (ix2 r n)) = ix1 n :=
    funext fun a => Fin.ext (by match a with | ⟨0, _⟩ => rfl)
  rw [val_main_v20_apply, val_main_v17_apply, val_main_v19_apply, val_main_v18_apply, eb]
  simp only [Ideal.addf_def]
  unfold Cert.PatchMlp.outLin
  refine congrArg (fun s => s + x5 (ix1 n)) ?_
  refine Finset.sum_congr rfl fun k _ => ?_
  rw [el, val_main_v16_apply, er, hidden_apply, mul_comm]

/-- THE REFERENCE IS THE SPECIFICATION: each output divided by (the square root of the row's sum of squares plus ε)
    is the specification's normalised output of the sampled column. -/
theorem ref_eq_result
    (x0 : (⟨S16x512x64x64, .f32⟩ : BufTy).Contents (Elt Ideal)) (x1 : (⟨S2048, .i32⟩ : BufTy).Contents (Elt Ideal))
    (x2 : (⟨S256x512, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal)) :
    Cert.ReferenceIdeal.Read.val_main_v28 (F := Ideal) x0 x1 x2 x3 x4 x5 = Cert.PatchMlp.result x0 x1 x2 x3 x4 x5 := by
  funext i
  obtain ⟨r, n, rfl⟩ : ∃ (r : Fin 32768) (n : Fin 256), i = ix2 r n := ⟨i 0, i 1, eq_ix2 i⟩
  have es : ∀ k : Fin 256, idx_main_v22 (idx_main_v23 (idx_main_v27 (ix2 r n))) k = ix2 r k := fun k =>
    funext fun a => Fin.ext (by match a with | ⟨0, _⟩ => rfl | ⟨1, _⟩ => rfl)
  rw [val_main_v28_apply, val_main_v27_apply, val_main_v26_apply, val_main_v25_apply, val_main_cst_1_apply,
    val_main_v24_apply, val_main_v23_apply, val_main_v22_apply, val_main_cst_apply, outLin_apply]
  simp only [Ideal.hostDivf_def, Ideal.addf_def, Ideal.hostUnary_sqrt_def, Ideal.ofBits_def, Ideal.ofBits_zero_f32, zero_add]
  show _ = Cert.PatchMlp.normalized (fun n k => x2 (ix2 n k)) (fun n => x3 (ix1 n)) (fun n k => x4 (ix2 n k)) (fun n => x5 (ix1 n))
    (column x0 x1 r) n
  unfold Cert.PatchMlp.normalized
  refine congrArg (fun s => Ideal.div _ (Ideal.sqrt s + Ideal.ofBits .f32 0x33D6BF95#32)) ?_
  refine Finset.sum_congr rfl fun k _ => ?_
  rw [val_main_v21_apply, es, outLin_apply]
  rfl

end Cert.ReferenceIdeal.RefValue

end
-- ==== Proof.lean ====
/-
  The kernel and the reference compute the same [32768, 256] array.

  Both programs take a feature map feat : [16, 512, 64, 64], 2048 index words and the weights of a two-layer
  perceptron.  The reference moves the channels last, gathers the 2048 sampled columns of every image, and runs the
  perceptron (x·w1ᵀ + b1, rectified, ·w2ᵀ + b2) and the division by (Euclidean norm + ε) on the 32768 sampled
  columns.  The kernel runs the same perceptron and normalisation on ALL 4096 columns of every image, one
  [512, 2048] block per grid point, and takes the 2048 sampled rows afterwards.  A column's output depends on that
  column only, so sampling commutes with it: both results are Spec's `result`, row 2048·b + p being the normalised
  output of image b's column at the position the p-th index word names (the two matrix products are the same sums
  with the factors in the other order; the changes of float format are the identity at the extended reals).

  The two programs treat an index word outside [-4096, 4095] differently — the reference's gather clamps it, the
  kernel's take fills the row with a fixed filler — so the precondition carries, beside the finiteness of the float
  inputs, "every index word is in [-4096, 4095]", the range in which the reference's index is a valid one.  Inside
  it the take's range test passes everywhere (KernelTail) and both programs read the clamped position.  Neither
  frame needs the precondition; no law of arithmetic beyond the commutativity of the product is used, so
  finiteness is never opened.
-/
import proofs.«422646_j42279658062096_3_alg».proof.Defs
import proofs.«422646_j42279658062096_3_alg».proof.Proof.Gen.Kernel
import proofs.«422646_j42279658062096_3_alg».proof.Proof.Gen.Kernel.Skeleton
import proofs.«422646_j42279658062096_3_alg».proof.Proof.Gen.Kernel.Launch
import proofs.«422646_j42279658062096_3_alg».proof.Proof.Gen.Kernel.Points
import proofs.«422646_j42279658062096_3_alg».proof.Proof.Gen.Kernel.Frame
import proofs.«422646_j42279658062096_3_alg».proof.Proof.Gen.KernelIdeal
import proofs.«422646_j42279658062096_3_alg».proof.Proof.Gen.KernelIdeal.Skeleton
import proofs.«422646_j42279658062096_3_alg».proof.Proof.Gen.KernelIdeal.Launch
import proofs.«422646_j42279658062096_3_alg».proof.Proof.Gen.KernelIdeal.Points
import proofs.«422646_j42279658062096_3_alg».proof.Proof.Gen.KernelIdeal.Frame
import proofs.«422646_j42279658062096_3_alg».proof.Proof.Gen.ReferenceIdeal
import proofs.«422646_j42279658062096_3_alg».proof.Proof.Gen.ReferenceIdeal.Run
import proofs.«422646_j42279658062096_3_alg».proof.Proof.Gen.ReferenceIdeal.Read
import proofs.«422646_j42279658062096_3_alg».proof.Proof.Gen.Pre_finite_inputs
import proofs.«422646_j42279658062096_3_alg».proof.Proof.Spec
import proofs.«422646_j42279658062096_3_alg».proof.Proof.PreRange
import proofs.«422646_j42279658062096_3_alg».proof.Proof.KernelTail
import proofs.«422646_j42279658062096_3_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference runs and leaves its arguments as they were: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- THE KERNEL'S RUN WITH ITS VALUE: under the precondition every execution ends with the result buffer at the
    specification's result of the argument arrays, the arguments unchanged.  The region leaves the dense array
    (KernelArray), the host lines after it take the sampled rows (KernelTail), and the precondition puts every index
    word in the range where the take's test passes (PreRange). -/
theorem kernel_run (m : (ℓ : Loc Cert.KernelIdeal.nD Cert.KernelIdeal.τ Cert.KernelIdeal.sig) → Buf (Elt Ideal) ℓ) (ρ : Dev Cert.KernelIdeal.nD → PrngReg)
    (hpre : Cert.Pre_KernelIdeal m) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v7)
        = Cert.PatchMlp.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run Cert.KernelIdeal.defs _ _).mono (fun _ h c =>
    ⟨((h c).2 Cert.KernelIdeal.main_v7 (Pipeline.mem_restRefs_of Cert.KernelIdeal.main_v7 (by decide) (by decide))).trans
        (Cert.KernelIdeal.Tail.tail_value m c (fun p => Cert.PreRange.word_in_range _ _ _ _ _ _ (hpre c) p)),
      ((h c).2 Cert.KernelIdeal.main_arg0 (Pipeline.mem_restRefs_of Cert.KernelIdeal.main_arg0 (by decide) (by decide))).trans (Cert.KernelIdeal.Gen.W_main_arg0 m (Cert.KernelIdeal.Gen.dats m) c),
      ((h c).2 Cert.KernelIdeal.main_arg1 (Pipeline.mem_restRefs_of Cert.KernelIdeal.main_arg1 (by decide) (by decide))).trans (Cert.KernelIdeal.Gen.W_main_arg1 m (Cert.KernelIdeal.Gen.dats m) c),
      ((h c).2 Cert.KernelIdeal.main_arg2 (Pipeline.mem_restRefs_of Cert.KernelIdeal.main_arg2 (by decide) (by decide))).trans (Cert.KernelIdeal.Gen.W_main_arg2 m (Cert.KernelIdeal.Gen.dats m) c),
      ((h c).2 Cert.KernelIdeal.main_arg3 (Pipeline.mem_restRefs_of Cert.KernelIdeal.main_arg3 (by decide) (by decide))).trans (Cert.KernelIdeal.Gen.W_main_arg3 m (Cert.KernelIdeal.Gen.dats m) c),
      ((h c).2 Cert.KernelIdeal.main_arg4 (Pipeline.mem_restRefs_of Cert.KernelIdeal.main_arg4 (by decide) (by decide))).trans (Cert.KernelIdeal.Gen.W_main_arg4 m (Cert.KernelIdeal.Gen.dats m) c),
      ((h c).2 Cert.KernelIdeal.main_arg5 (Pipeline.mem_restRefs_of Cert.KernelIdeal.main_arg5 (by decide) (by decide))).trans (Cert.KernelIdeal.Gen.W_main_arg5 m (Cert.KernelIdeal.Gen.dats m) c)⟩)
    (Cert.KernelIdeal.Gen.run_main m ρ)

/-- The idealization rewrote nothing: there is nothing to preserve. -/
theorem preserves : Cert.preserves_Kernel_KernelIdeal := trivial

/-- From memories agreeing on the arguments both programs end with the specification's result of those arguments:
    the kernel by its run, the reference by its generated run read one operation at a time (RefValue). -/
theorem algebraic : Cert.algebraic_KernelIdeal_ReferenceIdeal := by
  intro m ρ m' ρ' hpre hagree
  refine ⟨fun c => Cert.PatchMlp.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    kernel_run m ρ hpre, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.ReferenceIdeal.RefValue.ref_eq_result]
  obtain ⟨e0, e1, e2, e3, e4, e5⟩ := hagree c
  rw [e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
